-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024 : Shape := ⟨2, ![64, 1024]⟩
abbrev S16384x1024 : Shape := ⟨2, ![16384, 1024]⟩
abbrev S16384 : Shape := ⟨1, ![16384]⟩
abbrev S1024x16384 : Shape := ⟨2, ![1024, 16384]⟩
abbrev S1024 : Shape := ⟨1, ![1024]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S16384 : S_.BroadcastsInDim S16384 (![] : Fin 0 → Fin S16384.rank)
  reducesTo_S16384_S_d0 : S16384.ReducesTo [0] S_
  bcast_S_S1024x16384 : S_.BroadcastsInDim S1024x16384 (![] : Fin 0 → Fin S1024x16384.rank)
  reducesTo_S1024x16384_S_d0_1 : S1024x16384.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S16384 .f32) (main_v13 : IVec S_ 1) (main_v16 : IVec S1024x16384 1) : IVec S_ 1 :=
  let main_c_5 : IVec S_ 1 := constantI S_ 1 1#1
  let main_v17 : IVec S_ 1 := (fun x v => Host.reduce IntOp.andi x v reducesTo_S1024x16384_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S16384 .f32 := Host.absf main_arg5
  let main_cst_8 : FVec F S_ .f32 := constant S_ .f32 0x7F800000#32
  let main_v25 : FVec F S16384 .f32 := broadcastInDim S16384 ![] bcast_S_S16384 main_cst_8
  let main_v26 : IVec S16384 1 := cmpf .olt main_v24 main_v25
  let main_c_9 : IVec S_ 1 := constantI S_ 1 1#1
  let main_v27 : IVec S_ 1 := (fun x v => Host.reduce IntOp.andi x v reducesTo_S16384_S_d0 h_S_) main_v26 main_c_9
  let main_v28 : IVec S_ 1 := andi main_v23 main_v27
  main_v28

def fn {F : FTy → Type} [FloatOps F] (main_arg0 : FVec F S64x1024 .f32) (main_arg1 : FVec F S16384x1024 .f32) (main_arg2 : FVec F S16384 .f32) (main_arg3 : FVec F S1024x16384 .f32) (main_arg4 : FVec F S1024 .f32) (main_arg5 : FVec F S16384 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S1024x16384 .f32 := Host.absf main_arg3
  let main_cst_4 : FVec F S_ .f32 := constant S_ .f32 0x7F800000#32
  let main_v15 : FVec F S1024x16384 .f32 := broadcastInDim S1024x16384 ![] bcast_S_S1024x16384 main_cst_4
  let main_v16 : IVec S1024x16384 1 := cmpf .olt main_v14 main_v15
  fn_part1 (F := F) main_arg4 main_arg5 main_v13 main_v16
-- ==== Kernel.lean ====
abbrev S64x1024 : Shape := ⟨2, ![64, 1024]⟩
abbrev S16384x1024 : Shape := ⟨2, ![16384, 1024]⟩
abbrev S16384 : Shape := ⟨1, ![16384]⟩
abbrev S1024x16384 : Shape := ⟨2, ![1024, 16384]⟩
abbrev S1024 : Shape := ⟨1, ![1024]⟩
abbrev S1x16384 : Shape := ⟨2, ![1, 16384]⟩
abbrev S1x1024 : Shape := ⟨2, ![1, 1024]⟩
abbrev S2048x1024 : Shape := ⟨2, ![2048, 1024]⟩
abbrev S1x2048 : Shape := ⟨2, ![1, 2048]⟩
abbrev S1024x2048 : Shape := ⟨2, ![1024, 2048]⟩
abbrev S64x2048 : Shape := ⟨2, ![64, 2048]⟩

abbrev nBuf : Space → Nat
  | .hbm => 10
  | .vmem => 12
  | .smem => 0
  | _ => 0

abbrev bufTy : (tb : Table) → Fin (tcTables nBuf tb) → BufTy
  | .hbm, ⟨0, _⟩ => ⟨S64x1024, .f32⟩
  | .hbm, ⟨1, _⟩ => ⟨S16384x1024, .f32⟩
  | .hbm, ⟨2, _⟩ => ⟨S16384, .f32⟩
  | .hbm, ⟨3, _⟩ => ⟨S1024x16384, .f32⟩
  | .hbm, ⟨4, _⟩ => ⟨S1024, .f32⟩
  | .hbm, ⟨5, _⟩ => ⟨S16384, .f32⟩
  | .hbm, ⟨6, _⟩ => ⟨S1x16384, .f32⟩
  | .hbm, ⟨7, _⟩ => ⟨S1x16384, .f32⟩
  | .hbm, ⟨8, _⟩ => ⟨S1x1024, .f32⟩
  | .hbm, ⟨9, _⟩ => ⟨S64x1024, .f32⟩
  | .local _ .vmem, ⟨0, _⟩ => ⟨S64x1024, .f32⟩
  | .local _ .vmem, ⟨1, _⟩ => ⟨S2048x1024, .f32⟩
  | .local _ .vmem, ⟨2, _⟩ => ⟨S2048x1024, .f32⟩
  | .local _ .vmem, ⟨3, _⟩ => ⟨S1x2048, .f32⟩
  | .local _ .vmem, ⟨4, _⟩ => ⟨S1x2048, .f32⟩
  | .local _ .vmem, ⟨5, _⟩ => ⟨S1024x2048, .f32⟩
  | .local _ .vmem, ⟨6, _⟩ => ⟨S1024x2048, .f32⟩
  | .local _ .vmem, ⟨7, _⟩ => ⟨S1x1024, .f32⟩
  | .local _ .vmem, ⟨8, _⟩ => ⟨S1x2048, .f32⟩
  | .local _ .vmem, ⟨9, _⟩ => ⟨S1x2048, .f32⟩
  | .local _ .vmem, ⟨10, _⟩ => ⟨S64x1024, .f32⟩
  | .local _ .vmem, ⟨11, _⟩ => ⟨S64x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v26 : BitVec 1 := Scalar.cmpi .eq arg0 c7_i32
  let v27 : BitVec 32 := Scalar.extui v26
  let c0_i32_15 : BitVec 32 := 0#32
  let v28 : BitVec 1 := Scalar.cmpi .ne v27 c0_i32_15
  v28

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S16384_S1x16384 : S16384.ShapeCasts S1x16384
  shapeCasts_S1024_S1x1024 : S1024.ShapeCasts S1x1024
  inb_S64x1024_S64x1024_0_0 : ∀ a, (![0, 0] : Fin 2 → Nat) a + S64x1024.size a ≤ S64x1024.size a
  h_S64x1024 : 0 < S64x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  inb_S2048x1024_S2048x1024_0_0 : ∀ a, (![0, 0] : Fin 2 → Nat) a + S2048x1024.size a ≤ S2048x1024.size a
  h_S2048x1024 : 0 < S2048x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  natLt_1_32 : 1 < 32
  inb_S1024x2048_S1024x2048_0_0 : ∀ a, (![0, 0] : Fin 2 → Nat) a + S1024x2048.size a ≤ S1024x2048.size a
  h_S1024x2048 : 0 < S1024x2048.numel
  shapeCasts_S64x1024_S64x1024 : S64x1024.ShapeCasts S64x1024
  dot_S64x1024_S2048x1024_S64x2048_1_1_0_0_n_n_wf : DotDims.WF S64x1024 S2048x1024 S64x2048 [1] [1] [0] [0] [] []
  dot_S64x2048_S1024x2048_S64x1024_1_1_0_0_n_n_wf : DotDims.WF S64x2048 S1024x2048 S64x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x1024.size a
  hwx0_0 : ∀ i : grid0.Coords, EltTy.bits .f32 = 32 ∨ (Rect.block (s := S64x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x1024.size a
  hwx0_1 : ∀ i : grid0.Coords, EltTy.bits .f32 = 32 ∨ (Rect.block (s := S16384x1024) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x16384.size a
  hwx0_3 : ∀ i : grid0.Coords, EltTy.bits .f32 = 32 ∨ (Rect.block (s := S1024x16384) S1024x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x16384.size a
  hwx0_5 : ∀ i : grid0.Coords, EltTy.bits .f32 = 32 ∨ (Rect.block (s := S1x16384) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1024.size a ≤ S64x1024.size a
  hwx0_6 : ∀ i : grid0.Coords, EltTy.bits .f32 = 32 ∨ (Rect.block (s := S64x1024) S64x1024.size (cc0_transform_6 i) (hinb0_6 i)).WholeWords (EltTy.packing .f32)

variable [Facts₀]

def dot_S64x1024_S2048x1024_S64x2048_1_1_0_0_n_n : DotDims S64x1024 S2048x1024 S64x2048 where
  lhsContracting := [1]
  rhsContracting := [1]
  lhsNonContracting := [0]
  rhsNonContracting := [0]
  lhsBatch := []
  rhsBatch := []
  wf := dot_S64x1024_S2048x1024_S64x2048_1_1_0_0_n_n_wf
def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S64x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S64x1024.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S64x1024 : Shape := ⟨2, ![64, 1024]⟩
abbrev S16384x1024 : Shape := ⟨2, ![16384, 1024]⟩
abbrev S16384 : Shape := ⟨1, ![16384]⟩
abbrev S1024x16384 : Shape := ⟨2, ![1024, 16384]⟩
abbrev S1024 : Shape := ⟨1, ![1024]⟩
abbrev S1x1024 : Shape := ⟨2, ![1, 1024]⟩
abbrev S64x16384 : Shape := ⟨2, ![64, 16384]⟩
abbrev S1x16384 : Shape := ⟨2, ![1, 16384]⟩

abbrev nBuf : Space → Nat
  | .hbm => 24
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S16384x1024, .f32⟩
  | .hbm, ⟨2, _⟩ => ⟨S16384, .f32⟩
  | .hbm, ⟨3, _⟩ => ⟨S1024x16384, .f32⟩
  | .hbm, ⟨4, _⟩ => ⟨S1024, .f32⟩
  | .hbm, ⟨5, _⟩ => ⟨S16384, .f32⟩
  | .hbm, ⟨6, _⟩ => ⟨S1x1024, .f32⟩
  | .hbm, ⟨7, _⟩ => ⟨S64x1024, .f32⟩
  | .hbm, ⟨8, _⟩ => ⟨S64x1024, .f32⟩
  | .hbm, ⟨9, _⟩ => ⟨S1024x16384, .f32⟩
  | .hbm, ⟨10, _⟩ => ⟨S64x16384, .f32⟩
  | .hbm, ⟨11, _⟩ => ⟨S1x16384, .f32⟩
  | .hbm, ⟨12, _⟩ => ⟨S64x16384, .f32⟩
  | .hbm, ⟨13, _⟩ => ⟨S64x16384, .f32⟩
  | .hbm, ⟨14, _⟩ => ⟨S1x16384, .f32⟩
  | .hbm, ⟨15, _⟩ => ⟨S64x16384, .f32⟩
  | .hbm, ⟨16, _⟩ => ⟨S64x16384, .i1⟩
  | .hbm, ⟨17, _⟩ => ⟨S64x16384, .f32⟩
  | .hbm, ⟨18, _⟩ => ⟨S64x16384, .f32⟩
  | .hbm, ⟨19, _⟩ => ⟨S16384x1024, .f32⟩
  | .hbm, ⟨20, _⟩ => ⟨S64x1024, .f32⟩
  | .hbm, ⟨21, _⟩ => ⟨S1x1024, .f32⟩
  | .hbm, ⟨22, _⟩ => ⟨S64x1024, .f32⟩
  | .hbm, ⟨23, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  transposes_S16384x1024_S1024x16384_1_0 : S16384x1024.Transposes [1, 0] S1024x16384
  bcast_S16384_S1x16384_1 : S16384.BroadcastsInDim S1x16384 (![1] : Fin 1 → Fin S1x16384.rank)
  bcast_S1x16384_S64x16384_0_1 : S1x16384.BroadcastsInDim S64x16384 (![0, 1] : Fin 2 → Fin S64x16384.rank)
  transposes_S1024x16384_S16384x1024_1_0 : S1024x16384.Transposes [1, 0] S16384x1024
  dot_S64x1024_S1024x16384_S64x16384_1_0_0_1_n_n_wf : DotDims.WF S64x1024 S1024x16384 S64x16384 [1] [0] [0] [1] [] []
  dot_S64x16384_S16384x1024_S64x1024_1_0_0_1_n_n_wf : DotDims.WF S64x16384 S16384x1024 S64x1024 [1] [0] [0] [1] [] []

variable [Facts₀]

def dot_S64x1024_S1024x16384_S64x16384_1_0_0_1_n_n : DotDims S64x1024 S1024x16384 S64x16384 where
  lhsContracting := [1]
  rhsContracting := [0]
  lhsNonContracting := [0]
  rhsNonContracting := [1]
  lhsBatch := []
  rhsBatch := []
  wf := dot_S64x1024_S1024x16384_S64x16384_1_0_0_1_n_n_wf
def dot_S64x16384_S16384x1024_S64x1024_1_0_0_1_n_n : DotDims S64x16384 S16384x1024 S64x1024 where
  lhsContracting := [1]
  rhsContracting := [0]
  lhsNonContracting := [0]
  rhsNonContracting := [1]
  lhsBatch := []
  rhsBatch := []
  wf := dot_S64x16384_S16384x1024_S64x1024_1_0_0_1_n_n_wf

class Facts : Prop extends Facts₀ where

variable [Facts]
-- ==== Proof.LibTileSum.lean ====
/-
  Sums over an index set made of B equal tiles followed by a tail, and the few facts about the extended reals that go
  with them. A sum over Fin (B * E + N) is the sum over the B tiles of E plus the sum over the tail of N, and the same
  holds for a sum restricted by a predicate; a sum over the tiles of a quantity that does not depend on the tile is B
  copies of it; a sum over the places of Fin N equal to j is the term at j; B copies of a REAL number c, added in the
  extended reals, are (B : ℝ) * c (the extended reals are not a semiring, so the statement is made for real c); the
  inclusion of the reals commutes with finite sums, so a finite sum of real numbers is a real number; a sum of a one per
  element is the number of elements; the reciprocal square root of 1 is 1 and that of a positive real r is the real
  number (sqrt r)⁻¹; and in a family of integers all below K nobody equals a j with K ≤ j.
-/
import Idealize.ShloMosaic.PureOps.Ideal

noncomputable section

namespace Cert.Lib.TileSum

open Idealize.ShloMosaic

/-! ### Tiles and tail -/

theorem tile_lt {B E : ℕ} (N : ℕ) (t : Fin B) (e : Fin E) : t.val * E + e.val < B * E + N := by
  have h1 : t.val * E + e.val < (t.val + 1) * E := by
    have := e.isLt
    rw [Nat.add_mul, Nat.one_mul]
    omega
  have h2 : (t.val + 1) * E ≤ B * E := Nat.mul_le_mul_right E (Nat.succ_le_of_lt t.isLt)
  omega

/-- The flat position of element e of tile t: t * E + e. -/
def tileIx (B E N : ℕ) (t : Fin B) (e : Fin E) : Fin (B * E + N) := ⟨t.val * E + e.val, tile_lt N t e⟩

/-- The flat position of element n of the tail: B * E + n. -/
def tailIx (B E N : ℕ) (n : Fin N) : Fin (B * E + N) := ⟨B * E + n.val, by have := n.isLt; omega⟩

@[simp] theorem tileIx_val (B E N : ℕ) (t : Fin B) (e : Fin E) : (tileIx B E N t e).val = t.val * E + e.val := rfl
@[simp] theorem tailIx_val (B E N : ℕ) (n : Fin N) : (tailIx B E N n).val = B * E + n.val := rfl

/-- A sum over Fin (B * E) is the sum over the B tiles of the sums over the E places of a tile. -/
theorem sum_tiles {M : Type*} [AddCommMonoid M] (B E : ℕ) (g : Fin (B * E) → M) :
    ∑ k : Fin (B * E), g k = ∑ t : Fin B, ∑ e : Fin E, g ⟨t.val * E + e.val, by simpa using tile_lt 0 t e⟩ := by
  rw [← Fintype.sum_prod_type' (f := fun (t : Fin B) (e : Fin E) => g ⟨t.val * E + e.val, by simpa using tile_lt 0 t e⟩)]
  rw [← (finProdFinEquiv (m := B) (n := E)).sum_comp g]
  refine Finset.sum_congr rfl fun p _ => ?_
  congr 1
  apply Fin.ext
  simp [finProdFinEquiv, Nat.mul_comm, Nat.add_comm]

/-- A sum over Fin (B * E + N) is the sum over the B tiles of E plus the sum over the tail of N. -/
theorem sum_tiles_tail {M : Type*} [AddCommMonoid M] (B E N : ℕ) (f : Fin (B * E + N) → M) :
    ∑ k : Fin (B * E + N), f k
      = (∑ t : Fin B, ∑ e : Fin E, f (tileIx B E N t e)) + ∑ n : Fin N, f (tailIx B E N n) := by
  rw [Fin.sum_univ_add, sum_tiles]
  rfl

/-- The same for a sum restricted by a predicate: each tile, and the tail, restricted by the predicate at its places. -/
theorem sum_filter_tiles_tail {M : Type*} [AddCommMonoid M] (B E N : ℕ) (p : Fin (B * E + N) → Prop) [DecidablePred p]
    (f : Fin (B * E + N) → M) :
    ∑ k ∈ Finset.univ.filter p, f k
      = (∑ t : Fin B, ∑ e ∈ Finset.univ.filter (fun e => p (tileIx B E N t e)), f (tileIx B E N t e))
        + ∑ n ∈ Finset.univ.filter (fun n => p (tailIx B E N n)), f (tailIx B E N n) := by
  rw [Finset.sum_filter, sum_tiles_tail]
  simp only [Finset.sum_filter]

/-- A sum over the B tiles of a quantity that does not depend on the tile is B copies of it. -/
theorem sum_tiles_const {M : Type*} [AddCommMonoid M] (B : ℕ) (c : M) : ∑ _t : Fin B, c = B • c := by
  simp

/-- A sum over the places of Fin N whose value is j is the term at j. -/
theorem sum_filter_val_eq {M : Type*} [AddCommMonoid M] {N : ℕ} (j : ℕ) (hj : j < N) (f : Fin N → M) :
    ∑ n ∈ Finset.univ.filter (fun n : Fin N => n.val = j), f n = f ⟨j, hj⟩ := by
  have h : Finset.univ.filter (fun n : Fin N => n.val = j) = {⟨j, hj⟩} := by
    ext n
    simp [Fin.ext_iff]
  rw [h, Finset.sum_singleton]

/-! ### Real numbers inside the extended reals -/

/-- The inclusion of the reals commutes with finite sums. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem exists_real_sum {ι : Type*} (s : Finset ι) (f : ι → EReal) (h : ∀ i ∈ s, ∃ r : ℝ, f i = (r : EReal)) :
    ∃ r : ℝ, ∑ i ∈ s, f i = (r : EReal) := by
  classical
  choose! g hg using h
  exact ⟨∑ i ∈ s, g i, by rw [coe_finset_sum]; exact Finset.sum_congr rfl hg⟩

/-- A product of two real numbers is a real number. -/
theorem exists_real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- B copies of a real number c are (B : ℝ) * c. -/
theorem nsmul_coe (B : ℕ) (c : ℝ) : B • (c : EReal) = ((B : ℝ) : EReal) * (c : EReal) := by
  rw [← EReal.coe_nsmul, nsmul_eq_mul, EReal.coe_mul]

/-- B copies of a real number c, summed over the tiles, are (B : ℝ) * c. -/
theorem sum_tiles_real (B : ℕ) (c : ℝ) : ∑ _t : Fin B, (c : EReal) = ((B : ℝ) : EReal) * (c : EReal) := by
  rw [sum_tiles_const, nsmul_coe]

/-- A sum of a one per element, in the extended reals, is the number of elements. -/
theorem sum_ones {ι : Type*} (s : Finset ι) : ∑ _i ∈ s, (1 : EReal) = ((s.card : ℝ) : EReal) := by
  have h := coe_finset_sum s (fun _ => (1 : ℝ))
  rw [Finset.sum_const, nsmul_eq_mul, mul_one] at h
  rw [h]
  simp only [EReal.coe_one]

/-! ### The reciprocal square root -/

/-- The reciprocal square root of 1 is 1. -/
theorem rsqrt_one : Ideal.rsqrt ((1 : ℝ) : EReal) = 1 := by
  rw [Ideal.rsqrt_coe]
  norm_num

/-- The reciprocal square root of a positive real r is the real number (sqrt r)⁻¹. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real is a real number. -/
theorem exists_real_rsqrt {r : ℝ} (h : 0 < r) : ∃ q : ℝ, Ideal.rsqrt (r : EReal) = (q : EReal) :=
  ⟨_, rsqrt_pos h⟩

/-! ### Bounded targets -/

/-- In a family of integers all below K, nobody equals a j with K ≤ j. -/
theorem filter_eq_empty_of_lt {E : ℕ} (d : Fin E → ℤ) (K : ℤ) (hd : ∀ e, d e < K) (j : ℤ) (hj : K ≤ j) :
    Finset.univ.filter (fun e => d e = j) = ∅ := by
  apply Finset.filter_eq_empty_iff.mpr
  intro e _ he
  have := hd e
  omega

end Cert.Lib.TileSum

end
-- ==== Proof.SaeSpec.lean ====
/-
  A sparse autoencoder's inference pass as ONE function of its six arrays, and the two groupings of its decoding sum.

  Write c[b,k] = x[b,k] − b_dec[k]. Feature f of row b has the pre-activation
      p[b,f] = (Σ_k c[b,k] · W_enc[f,k]) + b_enc[f],
  it is kept when p[b,f] exceeds its threshold θ[f] and dropped otherwise, that is, it is multiplied by the value
  1 or 0 of the comparison:   e[b,f] = p[b,f] · [p[b,f] > θ[f]],
  and the reconstruction is   y[b,d] = (Σ_f e[b,f] · W_dec[d,f]) + b_dec[d].

  The 16384 features are 8 tiles of 2048 consecutive ones. The sum over f is the sum over the tiles of each tile's own
  sum, and the sum over the tiles is the running sum after the last tile; both hold on the extended reals without any
  finiteness, because only the commutativity and associativity of their addition are used.

  A tile's partial sum is also stated over BLOCKS (a row band of W_enc, a column band of W_dec, the matching pieces of
  b_enc and θ): when the blocks are the arrays read at the tile's offsets, it is that tile's partial sum.
-/
import Idealize.ShloMosaic.Lib.ValueIdx
import Idealize.ShloMosaic.PureOps.Ideal.Laws
import proofs.«142870_g2654289789409_cont_9to1_1237_2_alg».proof.Proof.LibTileSum

noncomputable section

namespace Cert.Sae

open Idealize.ShloMosaic Idealize.ShloMosaic.ValueIdx

/-! ## The comparison's value -/

/-- The value, 1 or 0, of the test `p > t` on the extended reals. -/
def gate (p t : EReal) : EReal := (((FloatOps.cmpf (F := Ideal) (φ := .f32) .ogt p t).toNat : ℝ) : EReal)

/-- One bit read as an unsigned integer is that value. -/
theorem uitofp_cmp (p t : Ideal .f32) :
    FloatOps.uitofp (F := Ideal) .f32 (FloatOps.cmpf .ogt p t) = gate p t := rfl

/-- One bit widened to 32 bits with zeros and read as a SIGNED integer is the same value: the sign bit is 0. -/
theorem sitofp_ext_cmp (p t : Ideal .f32) :
    FloatOps.sitofp (F := Ideal) .f32 ((FloatOps.cmpf .ogt p t).setWidth 32) = gate p t := by
  have h : ∀ b : BitVec 1, (b.setWidth 32).toInt = (b.toNat : ℤ) := by decide
  show ((((FloatOps.cmpf (F := Ideal) (φ := .f32) .ogt p t).setWidth 32).toInt : ℝ) : EReal) = gate p t
  rw [h]
  rfl

/-! ## The whole arrays -/

variable (x : (⟨2, ![64, 1024]⟩ : Shape).Idx → EReal) (We : (⟨2, ![16384, 1024]⟩ : Shape).Idx → EReal)
  (be : (⟨1, ![16384]⟩ : Shape).Idx → EReal) (Wd : (⟨2, ![1024, 16384]⟩ : Shape).Idx → EReal)
  (bd : (⟨1, ![1024]⟩ : Shape).Idx → EReal) (th : (⟨1, ![16384]⟩ : Shape).Idx → EReal)

/-- p[b,f]: the centred row b against row f of the encoder, plus the encoder's bias. -/
def preAct (b : Fin 64) (f : Fin 16384) : EReal :=
  (∑ k : Fin 1024, (x (ix2 b k) - bd (ix1 k)) * We (ix2 f k)) + be (ix1 f)

/-- e[b,f]: the pre-activation where it exceeds its threshold, zero times it elsewhere. -/
def feat (b : Fin 64) (f : Fin 16384) : EReal :=
  preAct x We be bd b f * gate (preAct x We be bd b f) (th (ix1 f))

/-- y: the features against the decoder's rows, plus the decoder's bias. -/
def decoded : (⟨2, ![64, 1024]⟩ : Shape).Idx → EReal := fun i =>
  (∑ f : Fin 16384, feat x We be bd th ⟨(i 0).val, idx2_lt0 i⟩ f * Wd (ix2 ⟨(i 1).val, idx2_lt1 i⟩ f))
    + bd (ix1 ⟨(i 1).val, idx2_lt1 i⟩)

theorem decoded_ix2 (b : Fin 64) (d : Fin 1024) :
    decoded x We be Wd bd th (ix2 b d) = (∑ f : Fin 16384, feat x We be bd th b f * Wd (ix2 d f)) + bd (ix1 d) := rfl

/-! ## Tiles of features -/

/-- Feature r of tile j. -/
def tileIx (j : Fin 8) (r : Fin 2048) : Fin 16384 := ⟨j.val * 2048 + r.val, by have := j.isLt; have := r.isLt; omega⟩

@[simp] theorem tileIx_val (j : Fin 8) (r : Fin 2048) : (tileIx j r).val = j.val * 2048 + r.val := rfl

/-- Tile j's share of the decoding sum. -/
def tilePart (j : Fin 8) : (⟨2, ![64, 1024]⟩ : Shape).Idx → EReal := fun i =>
  ∑ r : Fin 2048, feat x We be bd th ⟨(i 0).val, idx2_lt0 i⟩ (tileIx j r) * Wd (ix2 ⟨(i 1).val, idx2_lt1 i⟩ (tileIx j r))

theorem tilePart_ix2 (j : Fin 8) (b : Fin 64) (d : Fin 1024) :
    tilePart x We be Wd bd th j (ix2 b d) = ∑ r : Fin 2048, feat x We be bd th b (tileIx j r) * Wd (ix2 d (tileIx j r)) := rfl

/-- The decoding sum is the sum of the eight tiles' shares. -/
theorem sum_feat_eq_sum_tiles (b : Fin 64) (d : Fin 1024) :
    ∑ f : Fin 16384, feat x We be bd th b f * Wd (ix2 d f) = ∑ j : Fin 8, tilePart x We be Wd bd th j (ix2 b d) :=
  Cert.Lib.TileSum.sum_tiles 8 2048 (fun f : Fin 16384 => feat x We be bd th b f * Wd (ix2 d f))

/-- The shares of the tiles 0 … n, added up. -/
def runSum (n : ℕ) : (⟨2, ![64, 1024]⟩ : Shape).Idx → EReal := fun i =>
  ∑ j ∈ Finset.univ.filter (fun j : Fin 8 => j.val ≤ n), tilePart x We be Wd bd th j i

theorem runSum_zero : runSum x We be Wd bd th 0 = tilePart x We be Wd bd th 0 := by
  funext i
  have h : Finset.univ.filter (fun j : Fin 8 => j.val ≤ 0) = {(0 : Fin 8)} := by decide
  unfold runSum
  rw [h, Finset.sum_singleton]

theorem runSum_succ (n : ℕ) (h : n + 1 < 8) :
    runSum x We be Wd bd th (n + 1) = fun i => runSum x We be Wd bd th n i + tilePart x We be Wd bd th ⟨n + 1, h⟩ i := by
  funext i
  have hs : Finset.univ.filter (fun j : Fin 8 => j.val ≤ n + 1)
      = insert (⟨n + 1, h⟩ : Fin 8) (Finset.univ.filter (fun j : Fin 8 => j.val ≤ n)) := by
    ext j
    simp only [Finset.mem_filter, Finset.mem_univ, true_and, Finset.mem_insert, Fin.ext_iff]
    omega
  have hn : (⟨n + 1, h⟩ : Fin 8) ∉ Finset.univ.filter (fun j : Fin 8 => j.val ≤ n) := by
    simp only [Finset.mem_filter, Finset.mem_univ, true_and]
    omega
  unfold runSum
  rw [hs, Finset.sum_insert hn, add_comm]

theorem runSum_last (i : (⟨2, ![64, 1024]⟩ : Shape).Idx) :
    runSum x We be Wd bd th 7 i = ∑ j : Fin 8, tilePart x We be Wd bd th j i := by
  have h : Finset.univ.filter (fun j : Fin 8 => j.val ≤ 7) = Finset.univ := by decide
  unfold runSum
  rw [h]

/-- The reconstruction is the running sum after the last tile, plus the decoder's bias. -/
theorem decoded_eq_runSum (b : Fin 64) (d : Fin 1024) :
    decoded x We be Wd bd th (ix2 b d) = runSum x We be Wd bd th 7 (ix2 b d) + bd (ix1 d) := by
  rw [decoded_ix2, sum_feat_eq_sum_tiles, runSum_last]

/-! ## A tile's share, from blocks -/

/-- The pre-activations of one tile from a band of 2048 rows of the encoder and the matching piece of its bias;
    the centring vector is a one-row matrix. -/
def blkPre (xb : (⟨2, ![64, 1024]⟩ : Shape).Idx → EReal) (bdb : (⟨2, ![1, 1024]⟩ : Shape).Idx → EReal)
    (web : (⟨2, ![2048, 1024]⟩ : Shape).Idx → EReal) (beb : (⟨2, ![1, 2048]⟩ : Shape).Idx → EReal)
    (b : Fin 64) (r : Fin 2048) : EReal :=
  (∑ k : Fin 1024, (xb (ix2 b k) - bdb (ix2 (0 : Fin 1) k)) * web (ix2 r k)) + beb (ix2 (0 : Fin 1) r)

/-- One tile's share from its blocks: the gated pre-activations against a band of 2048 columns of the decoder. -/
def blkPart (xb : (⟨2, ![64, 1024]⟩ : Shape).Idx → EReal) (bdb : (⟨2, ![1, 1024]⟩ : Shape).Idx → EReal)
    (web : (⟨2, ![2048, 1024]⟩ : Shape).Idx → EReal) (beb : (⟨2, ![1, 2048]⟩ : Shape).Idx → EReal)
    (thb : (⟨2, ![1, 2048]⟩ : Shape).Idx → EReal) (wdb : (⟨2, ![1024, 2048]⟩ : Shape).Idx → EReal) :
    (⟨2, ![64, 1024]⟩ : Shape).Idx → EReal := fun i =>
  ∑ r : Fin 2048, (blkPre xb bdb web beb ⟨(i 0).val, idx2_lt0 i⟩ r
      * gate (blkPre xb bdb web beb ⟨(i 0).val, idx2_lt0 i⟩ r) (thb (ix2 (0 : Fin 1) r)))
    * wdb (ix2 ⟨(i 1).val, idx2_lt1 i⟩ r)

theorem blkPart_ix2 (xb : (⟨2, ![64, 1024]⟩ : Shape).Idx → EReal) (bdb : (⟨2, ![1, 1024]⟩ : Shape).Idx → EReal)
    (web : (⟨2, ![2048, 1024]⟩ : Shape).Idx → EReal) (beb : (⟨2, ![1, 2048]⟩ : Shape).Idx → EReal)
    (thb : (⟨2, ![1, 2048]⟩ : Shape).Idx → EReal) (wdb : (⟨2, ![1024, 2048]⟩ : Shape).Idx → EReal)
    (b : Fin 64) (d : Fin 1024) :
    blkPart xb bdb web beb thb wdb (ix2 b d)
      = ∑ r : Fin 2048, (blkPre xb bdb web beb b r * gate (blkPre xb bdb web beb b r) (thb (ix2 (0 : Fin 1) r)))
          * wdb (ix2 d r) := rfl

/-- The gated value depends only on the pre-activation and the threshold. -/
theorem gated_congr {p p' t t' : EReal} (hp : p = p') (ht : t = t') : p * gate p t = p' * gate p' t' := by
  subst hp; subst ht; rfl

/-- When the blocks are the arrays read at tile j's offsets, the share computed from them is tile j's. -/
theorem blkPart_eq_tilePart (j : Fin 8) (xb : (⟨2, ![64, 1024]⟩ : Shape).Idx → EReal)
    (bdb : (⟨2, ![1, 1024]⟩ : Shape).Idx → EReal) (web : (⟨2, ![2048, 1024]⟩ : Shape).Idx → EReal)
    (beb : (⟨2, ![1, 2048]⟩ : Shape).Idx → EReal) (thb : (⟨2, ![1, 2048]⟩ : Shape).Idx → EReal)
    (wdb : (⟨2, ![1024, 2048]⟩ : Shape).Idx → EReal)
    (hx : ∀ (b : Fin 64) (k : Fin 1024), xb (ix2 b k) = x (ix2 b k))
    (hbd : ∀ k : Fin 1024, bdb (ix2 (0 : Fin 1) k) = bd (ix1 k))
    (hwe : ∀ (r : Fin 2048) (k : Fin 1024), web (ix2 r k) = We (ix2 (tileIx j r) k))
    (hbe : ∀ r : Fin 2048, beb (ix2 (0 : Fin 1) r) = be (ix1 (tileIx j r)))
    (hth : ∀ r : Fin 2048, thb (ix2 (0 : Fin 1) r) = th (ix1 (tileIx j r)))
    (hwd : ∀ (d : Fin 1024) (r : Fin 2048), wdb (ix2 d r) = Wd (ix2 d (tileIx j r))) :
    blkPart xb bdb web beb thb wdb = tilePart x We be Wd bd th j := by
  have hp : ∀ (b : Fin 64) (r : Fin 2048), blkPre xb bdb web beb b r = preAct x We be bd b (tileIx j r) := by
    intro b r
    unfold blkPre preAct
    rw [hbe r]
    exact congrArg (· + be (ix1 (tileIx j r))) (Finset.sum_congr rfl fun k _ => by rw [hx b k, hbd k, hwe r k])
  funext i
  unfold blkPart tilePart feat
  exact Finset.sum_congr rfl fun r _ => by rw [hp, hth r, hwd]

end Cert.Sae

end
-- ==== Proof.KernelBody.lean ====
/-
  What one grid step computes from its six blocks, at the extended reals: the product of the gated pre-activations of
  one tile of 2048 features with the matching band of the decoder. Both matrix products contract the SECOND axis of both
  operands (the encoder and decoder bands are stored feature-major and model-major), into a zero accumulator, so each is a
  plain sum over the contracted index; the biases and thresholds are one-row matrices spread over the 64 rows; the
  comparison's bit is widened with zeros and read as a signed integer, which is its value 0 or 1.
-/
import proofs.«142870_g2654289789409_cont_9to1_1237_2_alg».proof.Proof.Gen.KernelIdeal.Skeleton
import proofs.«142870_g2654289789409_cont_9to1_1237_2_alg».proof.Proof.SaeSpec
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.TcCoe Idealize.SL.Sem
open Idealize.ShloMosaic.ValueIdx Idealize.ShloMosaic.Pipeline

/-! ### The encoding product: rows of the centred batch against rows of the encoder band -/

theorem lhs_enc_0 (i : S64x2048.Idx) (q : dot_S64x1024_S2048x1024_S64x2048_1_1_0_0_n_n.contr.Idx) :
    (dot_S64x1024_S2048x1024_S64x2048_1_1_0_0_n_n.lhsIdx i q 0).val = (i 0).val := by
  unfold DotDims.lhsIdx
  rw [dif_neg (show ¬(0 : Fin S64x1024.rank) ∈ dot_S64x1024_S2048x1024_S64x2048_1_1_0_0_n_n.lhsBatch by decide), dif_pos (show (0 : Fin S64x1024.rank) ∈ dot_S64x1024_S2048x1024_S64x2048_1_1_0_0_n_n.lhsNonContracting by decide)]
  rfl
theorem lhs_enc_1 (i : S64x2048.Idx) (q : dot_S64x1024_S2048x1024_S64x2048_1_1_0_0_n_n.contr.Idx) :
    (dot_S64x1024_S2048x1024_S64x2048_1_1_0_0_n_n.lhsIdx i q 1).val = (q ⟨0, by decide⟩).val :=
  dot_S64x1024_S2048x1024_S64x2048_1_1_0_0_n_n.lhsIdx_val_of_single rfl i q
theorem rhs_enc_0 (i : S64x2048.Idx) (q : dot_S64x1024_S2048x1024_S64x2048_1_1_0_0_n_n.contr.Idx) :
    (dot_S64x1024_S2048x1024_S64x2048_1_1_0_0_n_n.rhsIdx i q 0).val = (i 1).val := by
  unfold DotDims.rhsIdx
  rw [dif_neg (show ¬(0 : Fin S2048x1024.rank) ∈ dot_S64x1024_S2048x1024_S64x2048_1_1_0_0_n_n.rhsBatch by decide), dif_pos (show (0 : Fin S2048x1024.rank) ∈ dot_S64x1024_S2048x1024_S64x2048_1_1_0_0_n_n.rhsNonContracting by decide)]
  rfl
theorem rhs_enc_1 (i : S64x2048.Idx) (q : dot_S64x1024_S2048x1024_S64x2048_1_1_0_0_n_n.contr.Idx) :
    (dot_S64x1024_S2048x1024_S64x2048_1_1_0_0_n_n.rhsIdx i q 1).val = (q ⟨0, by decide⟩).val :=
  dot_S64x1024_S2048x1024_S64x2048_1_1_0_0_n_n.rhsIdx_val_of_single rfl i q

/-- Entry (b, q) of the encoding product is the sum over k of l[b,k] · r[q,k]. -/
theorem encode_apply (l : FVec Ideal S64x1024 .f32) (r : FVec Ideal S2048x1024 .f32) (b : Fin 64) (q : Fin 2048) :
    matmul dot_S64x1024_S2048x1024_S64x2048_1_1_0_0_n_n none l r (constant (F := Ideal) S64x2048 .f32 0x00000000#32) (ix2 b q)
      = ∑ k : Fin 1024, l (ix2 b k) * r (ix2 q k) := by
  simp only [matmul]
  rw [Ideal.matmul_constant_zero_apply, ← Equiv.sum_comp (ValueIdx.contrEquiv1 dot_S64x1024_S2048x1024_S64x2048_1_1_0_0_n_n 1024 rfl rfl).symm]
  refine Finset.sum_congr rfl fun k _ => ?_
  have hk := ValueIdx.contrEquiv1_symm_val dot_S64x1024_S2048x1024_S64x2048_1_1_0_0_n_n 1024 rfl rfl k
  have el : dot_S64x1024_S2048x1024_S64x2048_1_1_0_0_n_n.lhsIdx (ix2 b q) ((ValueIdx.contrEquiv1 dot_S64x1024_S2048x1024_S64x2048_1_1_0_0_n_n 1024 rfl rfl).symm k) = ix2 b k := funext fun a => Fin.ext (by
    match a with
    | ⟨0, _⟩ => exact lhs_enc_0 _ _
    | ⟨1, _⟩ => exact (lhs_enc_1 _ _).trans hk)
  have er : dot_S64x1024_S2048x1024_S64x2048_1_1_0_0_n_n.rhsIdx (ix2 b q) ((ValueIdx.contrEquiv1 dot_S64x1024_S2048x1024_S64x2048_1_1_0_0_n_n 1024 rfl rfl).symm k) = ix2 q k := funext fun a => Fin.ext (by
    match a with
    | ⟨0, _⟩ => exact rhs_enc_0 _ _
    | ⟨1, _⟩ => exact (rhs_enc_1 _ _).trans hk)
  rw [el, er]

/-! ### The decoding product: rows of the gated features against rows of the decoder band -/

theorem lhs_dec_0 (i : S64x1024.Idx) (q : dot_S64x2048_S1024x2048_S64x1024_1_1_0_0_n_n.contr.Idx) :
    (dot_S64x2048_S1024x2048_S64x1024_1_1_0_0_n_n.lhsIdx i q 0).val = (i 0).val := by
  unfold DotDims.lhsIdx
  rw [dif_neg (show ¬(0 : Fin S64x2048.rank) ∈ dot_S64x2048_S1024x2048_S64x1024_1_1_0_0_n_n.lhsBatch by decide), dif_pos (show (0 : Fin S64x2048.rank) ∈ dot_S64x2048_S1024x2048_S64x1024_1_1_0_0_n_n.lhsNonContracting by decide)]
  rfl
theorem lhs_dec_1 (i : S64x1024.Idx) (q : dot_S64x2048_S1024x2048_S64x1024_1_1_0_0_n_n.contr.Idx) :
    (dot_S64x2048_S1024x2048_S64x1024_1_1_0_0_n_n.lhsIdx i q 1).val = (q ⟨0, by decide⟩).val :=
  dot_S64x2048_S1024x2048_S64x1024_1_1_0_0_n_n.lhsIdx_val_of_single rfl i q
theorem rhs_dec_0 (i : S64x1024.Idx) (q : dot_S64x2048_S1024x2048_S64x1024_1_1_0_0_n_n.contr.Idx) :
    (dot_S64x2048_S1024x2048_S64x1024_1_1_0_0_n_n.rhsIdx i q 0).val = (i 1).val := by
  unfold DotDims.rhsIdx
  rw [dif_neg (show ¬(0 : Fin S1024x2048.rank) ∈ dot_S64x2048_S1024x2048_S64x1024_1_1_0_0_n_n.rhsBatch by decide), dif_pos (show (0 : Fin S1024x2048.rank) ∈ dot_S64x2048_S1024x2048_S64x1024_1_1_0_0_n_n.rhsNonContracting by decide)]
  rfl
theorem rhs_dec_1 (i : S64x1024.Idx) (q : dot_S64x2048_S1024x2048_S64x1024_1_1_0_0_n_n.contr.Idx) :
    (dot_S64x2048_S1024x2048_S64x1024_1_1_0_0_n_n.rhsIdx i q 1).val = (q ⟨0, by decide⟩).val :=
  dot_S64x2048_S1024x2048_S64x1024_1_1_0_0_n_n.rhsIdx_val_of_single rfl i q

/-- Entry (b, d) of the decoding product is the sum over r of e[b,r] · w[d,r]. -/
theorem decode_apply (e : FVec Ideal S64x2048 .f32) (w : FVec Ideal S1024x2048 .f32) (b : Fin 64) (d : Fin 1024) :
    matmul dot_S64x2048_S1024x2048_S64x1024_1_1_0_0_n_n none e w (constant (F := Ideal) S64x1024 .f32 0x00000000#32) (ix2 b d)
      = ∑ r : Fin 2048, e (ix2 b r) * w (ix2 d r) := by
  simp only [matmul]
  rw [Ideal.matmul_constant_zero_apply, ← Equiv.sum_comp (ValueIdx.contrEquiv1 dot_S64x2048_S1024x2048_S64x1024_1_1_0_0_n_n 2048 rfl rfl).symm]
  refine Finset.sum_congr rfl fun k _ => ?_
  have hk := ValueIdx.contrEquiv1_symm_val dot_S64x2048_S1024x2048_S64x1024_1_1_0_0_n_n 2048 rfl rfl k
  have el : dot_S64x2048_S1024x2048_S64x1024_1_1_0_0_n_n.lhsIdx (ix2 b d) ((ValueIdx.contrEquiv1 dot_S64x2048_S1024x2048_S64x1024_1_1_0_0_n_n 2048 rfl rfl).symm k) = ix2 b k := funext fun a => Fin.ext (by
    match a with
    | ⟨0, _⟩ => exact lhs_dec_0 _ _
    | ⟨1, _⟩ => exact (lhs_dec_1 _ _).trans hk)
  have er : dot_S64x2048_S1024x2048_S64x1024_1_1_0_0_n_n.rhsIdx (ix2 b d) ((ValueIdx.contrEquiv1 dot_S64x2048_S1024x2048_S64x1024_1_1_0_0_n_n 2048 rfl rfl).symm k) = ix2 d k := funext fun a => Fin.ext (by
    match a with
    | ⟨0, _⟩ => exact rhs_dec_0 _ _
    | ⟨1, _⟩ => exact (rhs_dec_1 _ _).trans hk)
  rw [el, er]

/-! ### The pointwise steps -/

/-- The centred batch: the one-row bias is spread over the rows and subtracted. -/
theorem centred_apply (v0 : FVec Ideal S64x1024 .f32) (v1 : FVec Ideal S1x1024 .f32) (b : Fin 64) (k : Fin 1024) :
    subf v0 (broadcastTo S64x1024 (shapeCast S1x1024 v1 shapeCasts_S1x1024_S1x1024) broadcasts_S1x1024_S64x1024) (ix2 b k)
      = v0 (ix2 b k) - v1 (ix2 (0 : Fin 1) k) := by
  rw [subf_apply, broadcastTo_1b_ab_apply, shapeCast_self]

/-- The pre-activations of the tile: the encoding product plus the one-row bias spread over the rows. -/
theorem preact_apply (c : FVec Ideal S64x1024 .f32) (v5 : FVec Ideal S2048x1024 .f32) (v7 : FVec Ideal S1x2048 .f32)
    (b : Fin 64) (r : Fin 2048) :
    addf (matmul dot_S64x1024_S2048x1024_S64x2048_1_1_0_0_n_n none c v5 (constant (F := Ideal) S64x2048 .f32 0x00000000#32))
        (broadcastTo S64x2048 (shapeCast S1x2048 v7 shapeCasts_S1x2048_S1x2048) broadcasts_S1x2048_S64x2048) (ix2 b r)
      = (∑ k : Fin 1024, c (ix2 b k) * v5 (ix2 r k)) + v7 (ix2 (0 : Fin 1) r) := by
  rw [addf_apply, encode_apply, broadcastTo_1b_ab_apply, shapeCast_self]

/-- The gate: the pre-activation times the value of its comparison with the threshold. -/
theorem gated_apply (p t : FVec Ideal S64x2048 .f32) (b : Fin 64) (r : Fin 2048) :
    mulf p (sitofp .f32 (extui 32 (cmpf .ogt p t) natLt_1_32)) (ix2 b r)
      = p (ix2 b r) * Cert.Sae.gate (p (ix2 b r)) (t (ix2 b r)) :=
  congrArg (p (ix2 b r) * ·) (Cert.Sae.sitofp_ext_cmp (p (ix2 b r)) (t (ix2 b r)))

/-! ### The step's partial product -/

/-- The body's product, from the six loaded blocks, is the tile's share computed from those blocks. -/
theorem pay1_eq (v0 : Vec Ideal S64x1024 .f32) (v1 : Vec Ideal S1x1024 .f32) (v5 : Vec Ideal S2048x1024 .f32)
    (v7 : Vec Ideal S1x2048 .f32) (v11 : Vec Ideal S1x2048 .f32) (v18 : Vec Ideal S1024x2048 .f32) :
    k0_pay1 (F := Ideal) v0 v1 v5 v7 v11 v18 = Cert.Sae.blkPart v0 v1 v5 v7 v11 v18 := by
  funext i
  obtain ⟨b, d, rfl⟩ : ∃ (b : Fin 64) (d : Fin 1024), i = ix2 b d := ⟨i 0, i 1, eq_ix2 i⟩
  unfold k0_pay1
  refine (decode_apply _ _ b d).trans ?_
  rw [Cert.Sae.blkPart_ix2]
  refine Finset.sum_congr rfl fun r _ => ?_
  refine congrArg (· * v18 (ix2 d r)) ?_
  refine (gated_apply _ _ b r).trans ?_
  refine Cert.Sae.gated_congr ?_ ?_
  · refine (preact_apply _ v5 v7 b r).trans ?_
    unfold Cert.Sae.blkPre
    exact congrArg (· + v7 (ix2 (0 : Fin 1) r)) (Finset.sum_congr rfl fun k _ => by rw [centred_apply])
  · rw [broadcastTo_1b_ab_apply, shapeCast_self]

/-- The first step's store: the partial product itself. -/
theorem pay2_eq (v0 : Vec Ideal S64x1024 .f32) (v1 : Vec Ideal S1x1024 .f32) (v5 : Vec Ideal S2048x1024 .f32)
    (v7 : Vec Ideal S1x2048 .f32) (v11 : Vec Ideal S1x2048 .f32) (v18 : Vec Ideal S1024x2048 .f32) :
    k0_pay2 (F := Ideal) v0 v1 v5 v7 v11 v18 = Cert.Sae.blkPart v0 v1 v5 v7 v11 v18 := by
  show shapeCast S64x1024 (k0_pay1 (F := Ideal) v0 v1 v5 v7 v11 v18) shapeCasts_S64x1024_S64x1024 = _
  exact (shapeCast_self _ _).trans (pay1_eq v0 v1 v5 v7 v11 v18)

/-- A later step's store: what the scratch held plus the partial product. -/
theorem pay3_eq (v0 : Vec Ideal S64x1024 .f32) (v1 : Vec Ideal S1x1024 .f32) (v5 : Vec Ideal S2048x1024 .f32)
    (v7 : Vec Ideal S1x2048 .f32) (v11 : Vec Ideal S1x2048 .f32) (v18 : Vec Ideal S1024x2048 .f32)
    (acc : Vec Ideal S64x1024 .f32) :
    k0_pay3 (F := Ideal) v0 v1 v5 v7 v11 v18 acc = fun i => acc i + Cert.Sae.blkPart v0 v1 v5 v7 v11 v18 i := by
  show shapeCast S64x1024 (addf acc (k0_pay1 (F := Ideal) v0 v1 v5 v7 v11 v18)) shapeCasts_S64x1024_S64x1024 = _
  refine (shapeCast_self _ _).trans ?_
  rw [pay1_eq]
  rfl

/-- The last step's output: the scratch plus the one-row bias spread over the rows. -/
theorem pay4_apply (acc : Vec Ideal S64x1024 .f32) (v30 : Vec Ideal S1x1024 .f32) (b : Fin 64) (d : Fin 1024) :
    k0_pay4 (F := Ideal) acc v30 (ix2 b d) = acc (ix2 b d) + v30 (ix2 (0 : Fin 1) d) := by
  show addf (F := Ideal) (φ := .f32) acc (broadcastTo S64x1024 (shapeCast S1x1024 v30 shapeCasts_S1x1024_S1x1024) broadcasts_S1x1024_S64x1024) (ix2 b d) = _
  rw [addf_apply, broadcastTo_1b_ab_apply, shapeCast_self]

end Cert.KernelIdeal.Body

end
-- ==== Proof.KernelCases.lean ====
/-
  What each of the body's three control cases leaves behind, as values. At the first grid step the scratch is set to the
  step's partial product; at every later step the partial product is added to what the scratch held; at the last step the
  output block is, besides, the updated scratch plus the decoder's bias spread over the rows. Every load and store of the
  body goes through the whole of its buffer, so a loaded value is the buffer's contents and a stored one replaces them.
-/
import proofs.«142870_g2654289789409_cont_9to1_1237_2_alg».proof.Proof.Gen.KernelIdeal.Frame
import Idealize.ShloMosaic.Lib.Pipeline.Value
import Idealize.ShloMosaic.Lib.Tactic

set_option maxRecDepth 16384

noncomputable section

namespace Cert.KernelIdeal.Cases

open Cert.KernelIdeal Cert.KernelIdeal.Gen Idealize.ShloMosaic Idealize.ShloMosaic.TcCoe Idealize.SL.Sem
open Idealize.ShloMosaic.Pipeline (Dat)

variable {F : FTy → Type} [FloatOps F]

/-- The zero offsets, as the printed accesses spell them. -/
theorem hz : (![0, 0] : Fin 2 → Nat) = fun _ => 0 := funext fun a => by fin_cases a <;> rfl

/-- First step: the scratch ends at the step's partial product. -/
theorem scratch_first (c : Dev nD) (i : grid0.Coords) (arg1 : Memref sig .tc .vmem S64x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S1x2048 .f32) (harg6 : arg6.IsWhole) (arg7 : Memref sig .tc .vmem S64x1024 .f32) (harg7 : arg7.IsWhole) (arg8 : Memref sig .tc .vmem S64x1024 .f32) (harg8 : arg8.IsWhole) (hc0 : cond0_0 i) (hc1 : ¬cond0_1 i) (hc2 : ¬cond0_2 i)
    (x0 : Vec F S64x1024 .f32) (x1 : Vec F S2048x1024 .f32) (x2 : Vec F S1x2048 .f32) (x3 : Vec F S1024x2048 .f32) (x4 : Vec F S1x1024 .f32) (x5 : Vec F S1x2048 .f32) :
    sout0_A_0 c i arg1 harg1 arg2 harg2 arg3 harg3 arg4 harg4 arg5 harg5 arg6 harg6 arg7 harg7 arg8 harg8 hc0 hc1 hc2 x0 x1 x2 x3 x4 x5 = k0_pay2 x0 x4 x1 x2 x5 x3 := by
  unfold sout0_A_0
  rw [View.read_writes_eq_canon _ _ _ (scover0_A_0 c i arg1 harg1 arg2 harg2 arg3 harg3 arg4 harg4 arg5 harg5 arg6 harg6 arg7 harg7 arg8 harg8 hc0 hc1 hc2 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S64x1024) hz, View.ld_unit_zero (S := S2048x1024) hz, View.ld_unit_zero (S := S1x2048) hz, View.ld_unit_zero (S := S1024x2048) hz, View.ld_unit_zero (S := S1x1024) hz]

/-- A middle step: the scratch ends at what it held plus the step's partial product. -/
theorem scratch_middle (c : Dev nD) (i : grid0.Coords) (arg1 : Memref sig .tc .vmem S64x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S1x2048 .f32) (harg6 : arg6.IsWhole) (arg7 : Memref sig .tc .vmem S64x1024 .f32) (harg7 : arg7.IsWhole) (arg8 : Memref sig .tc .vmem S64x1024 .f32) (harg8 : arg8.IsWhole) (hc0 : ¬cond0_0 i) (hc1 : cond0_1 i) (hc2 : ¬cond0_2 i)
    (x0 : Vec F S64x1024 .f32) (x1 : Vec F S2048x1024 .f32) (x2 : Vec F S1x2048 .f32) (x3 : Vec F S1024x2048 .f32) (x4 : Vec F S1x1024 .f32) (x5 : Vec F S1x2048 .f32) (xs0 : Vec F S64x1024 .f32) :
    sout0_B_0 c i arg1 harg1 arg2 harg2 arg3 harg3 arg4 harg4 arg5 harg5 arg6 harg6 arg7 harg7 arg8 harg8 hc0 hc1 hc2 x0 x1 x2 x3 x4 x5 xs0 = k0_pay3 x0 x4 x1 x2 x5 x3 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 hc2 x0 x1 x2 x3 x4 x5 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S64x1024) hz, View.ld_unit_zero (S := S2048x1024) hz, View.ld_unit_zero (S := S1x2048) hz, View.ld_unit_zero (S := S1024x2048) hz, View.ld_unit_zero (S := S1x1024) hz]

/-- The last step: the scratch likewise, -/
theorem scratch_last (c : Dev nD) (i : grid0.Coords) (arg1 : Memref sig .tc .vmem S64x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S1x2048 .f32) (harg6 : arg6.IsWhole) (arg7 : Memref sig .tc .vmem S64x1024 .f32) (harg7 : arg7.IsWhole) (arg8 : Memref sig .tc .vmem S64x1024 .f32) (harg8 : arg8.IsWhole) (hc0 : ¬cond0_0 i) (hc1 : cond0_1 i) (hc2 : cond0_2 i)
    (x0 : Vec F S64x1024 .f32) (x1 : Vec F S2048x1024 .f32) (x2 : Vec F S1x2048 .f32) (x3 : Vec F S1024x2048 .f32) (x4 : Vec F S1x1024 .f32) (x5 : Vec F S1x2048 .f32) (xs0 : Vec F S64x1024 .f32) :
    sout0_C_0 c i arg1 harg1 arg2 harg2 arg3 harg3 arg4 harg4 arg5 harg5 arg6 harg6 arg7 harg7 arg8 harg8 hc0 hc1 hc2 x0 x1 x2 x3 x4 x5 xs0 = k0_pay3 x0 x4 x1 x2 x5 x3 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 hc2 x0 x1 x2 x3 x4 x5 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S64x1024) hz, View.ld_unit_zero (S := S2048x1024) hz, View.ld_unit_zero (S := S1x2048) hz, View.ld_unit_zero (S := S1024x2048) hz, View.ld_unit_zero (S := S1x1024) hz]

/-- and the output block: the updated scratch, read back, plus the bias. -/
theorem out_last (c : Dev nD) (i : grid0.Coords) (arg1 : Memref sig .tc .vmem S64x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S1x2048 .f32) (harg6 : arg6.IsWhole) (arg7 : Memref sig .tc .vmem S64x1024 .f32) (harg7 : arg7.IsWhole) (arg8 : Memref sig .tc .vmem S64x1024 .f32) (harg8 : arg8.IsWhole) (hc0 : ¬cond0_0 i) (hc1 : cond0_1 i) (hc2 : cond0_2 i)
    (x0 : Vec F S64x1024 .f32) (x1 : Vec F S2048x1024 .f32) (x2 : Vec F S1x2048 .f32) (x3 : Vec F S1024x2048 .f32) (x4 : Vec F S1x1024 .f32) (x5 : Vec F S1x2048 .f32) (xs0 : Vec F S64x1024 .f32) :
    out0_C_6 c i arg1 harg1 arg2 harg2 arg3 harg3 arg4 harg4 arg5 harg5 arg6 harg6 arg7 harg7 arg8 harg8 hc0 hc1 hc2 x0 x1 x2 x3 x4 x5 xs0 = k0_pay4 (k0_pay3 x0 x4 x1 x2 x5 x3 xs0) x4 := by
  unfold out0_C_6
  rw [View.read_writes_eq_canon _ _ _ (cover0_C_6 c i arg1 harg1 arg2 harg2 arg3 harg3 arg4 harg4 arg5 harg5 arg6 harg6 arg7 harg7 arg8 harg8 hc0 hc1 hc2 x0 x1 x2 x3 x4 x5 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S64x1024) hz, View.ld_unit_zero (S := S2048x1024) hz, View.ld_unit_zero (S := S1x2048) hz, View.ld_unit_zero (S := S1024x2048) hz, View.ld_unit_zero (S := S1x1024) hz, View.readCov_unit_zero (S := S64x1024) _ hz]

end Cert.KernelIdeal.Cases

end
-- ==== Proof.KernelBlocks.lean ====
/-
  Which entries of the arrays the blocks of a grid step hold. Step t works on tile t of the features: its encoder block
  is rows 2048·t … 2048·t + 2047 of W_enc, its decoder block is the same columns of W_dec, and its encoder-bias and
  threshold blocks are the same entries of b_enc and θ, which reach the kernel as one-row matrices (a vector recast
  with a leading axis of size one has the same entries). The batch x and the decoder's bias are taken whole at every step.
-/
import proofs.«142870_g2654289789409_cont_9to1_1237_2_alg».proof.Proof.Gen.KernelIdeal.Frame
import proofs.«142870_g2654289789409_cont_9to1_1237_2_alg».proof.Proof.SaeSpec
import Idealize.ShloMosaic.Lib.Pipeline.Value
import Idealize.ShloMosaic.Lib.StableHlo.Run
import Idealize.ShloMosaic.Lib.ValueLayout
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The tile of features a grid step works on: its own number. -/
def tileOf (t : Fin cfg0.N) : Fin 8 := ⟨t.val, lt_of_lt_of_eq t.isLt (show cfg0.N = 8 from N_0)⟩

@[simp] theorem tileOf_val (t : Fin cfg0.N) : (tileOf t).val = t.val := rfl

/-- The block index of every window at every step: the step's number along the feature axis, zero elsewhere. -/
theorem idx_facts : ∀ t : Fin cfg0.N,
    win0_0.index t 0 = 0 ∧ win0_0.index t 1 = 0 ∧ win0_1.index t 0 = t.val ∧ win0_1.index t 1 = 0
    ∧ win0_2.index t 0 = 0 ∧ win0_2.index t 1 = t.val ∧ win0_3.index t 0 = 0 ∧ win0_3.index t 1 = t.val
    ∧ win0_4.index t 0 = 0 ∧ win0_4.index t 1 = 0 ∧ win0_5.index t 0 = 0 ∧ win0_5.index t 1 = t.val
    ∧ win0_6.index t 0 = 0 ∧ win0_6.index t 1 = 0 :=
  (by decide +kernel : ∀ t : Fin grid0.N, _)

/-! ### The three vectors as one-row matrices -/

theorem V_bias_e (c : Dev nD) : (V m c main_call0_v0 : Vec F S1x16384 .f32)
    = shapeCast S1x16384 (m ((c : Thread nD τ).loc main_arg2)) shapeCasts_S16384_S1x16384 := by
  dsimp only [V, hostOps0]
  after_results
  rfl

theorem V_thr (c : Dev nD) : (V m c main_call0_v1 : Vec F S1x16384 .f32)
    = shapeCast S1x16384 (m ((c : Thread nD τ).loc main_arg5)) shapeCasts_S16384_S1x16384 := by
  dsimp only [V, hostOps0]
  after_results
  rfl

theorem V_bias_d (c : Dev nD) : (V m c main_call0_v2 : Vec F S1x1024 .f32)
    = shapeCast S1x1024 (m ((c : Thread nD τ).loc main_arg4)) shapeCasts_S1024_S1x1024 := by
  dsimp only [V, hostOps0]
  after_results
  rfl

/-! ### The blocks -/

/-- The batch block is the batch. -/
theorem blk_x (c : Dev nD) (t : Fin cfg0.N) (b : Fin 64) (k : Fin 1024) :
    (iblk m c 0 t : Vec F S64x1024 .f32) (ix2 b k)
      = (m ((c : Thread nD τ).loc main_arg0) : Vec F S64x1024 .f32) (ix2 b k) := by
  unfold iblk
  rw [View.read_apply]
  show V m c main_arg0 _ = _
  rw [V_main_arg0]
  refine congrArg _ (funext fun a => Fin.ext ?_)
  match a with
  | ⟨0, _⟩ => show win0_0.index t 0 * 64 + 1 * b.val = b.val; rw [(idx_facts t).1]; omega
  | ⟨1, _⟩ => show win0_0.index t 1 * 1024 + 1 * k.val = k.val; rw [(idx_facts t).2.1]; omega

/-- Row r of the encoder block is row r of tile t of the encoder. -/
theorem blk_we (c : Dev nD) (t : Fin cfg0.N) (r : Fin 2048) (k : Fin 1024) :
    (iblk m c 1 t : Vec F S2048x1024 .f32) (ix2 r k)
      = (m ((c : Thread nD τ).loc main_arg1) : Vec F S16384x1024 .f32) (ix2 (Cert.Sae.tileIx (tileOf t) r) k) := by
  unfold iblk
  rw [View.read_apply]
  show V m c main_arg1 _ = _
  rw [V_main_arg1]
  refine congrArg _ (funext fun a => Fin.ext ?_)
  match a with
  | ⟨0, _⟩ => show win0_1.index t 0 * 2048 + 1 * r.val = t.val * 2048 + r.val; rw [(idx_facts t).2.2.1]; omega
  | ⟨1, _⟩ => show win0_1.index t 1 * 1024 + 1 * k.val = k.val; rw [(idx_facts t).2.2.2.1]; omega

/-- Entry r of the encoder-bias block is entry r of tile t of the bias. -/
theorem blk_be (c : Dev nD) (t : Fin cfg0.N) (r : Fin 2048) :
    (iblk m c 2 t : Vec F S1x2048 .f32) (ix2 (0 : Fin 1) r)
      = (m ((c : Thread nD τ).loc main_arg2) : Vec F S16384 .f32) (ix1 (Cert.Sae.tileIx (tileOf t) r)) := by
  unfold iblk
  rw [View.read_apply]
  show (V m c main_call0_v0 : Vec F S1x16384 .f32) _ = _
  rw [V_bias_e, ← shapeCast_a_1a_apply (m ((c : Thread nD τ).loc main_arg2)) shapeCasts_S16384_S1x16384 (0 : Fin 1) (Cert.Sae.tileIx (tileOf t) r)]
  refine congrArg _ (funext fun a => Fin.ext ?_)
  match a with
  | ⟨0, _⟩ => show win0_2.index t 0 * 1 + 1 * 0 = 0; rw [(idx_facts t).2.2.2.2.1]
  | ⟨1, _⟩ => show win0_2.index t 1 * 2048 + 1 * r.val = t.val * 2048 + r.val; rw [(idx_facts t).2.2.2.2.2.1]; omega

/-- Column r of the decoder block is column r of tile t of the decoder. -/
theorem blk_wd (c : Dev nD) (t : Fin cfg0.N) (d : Fin 1024) (r : Fin 2048) :
    (iblk m c 3 t : Vec F S1024x2048 .f32) (ix2 d r)
      = (m ((c : Thread nD τ).loc main_arg3) : Vec F S1024x16384 .f32) (ix2 d (Cert.Sae.tileIx (tileOf t) r)) := by
  unfold iblk
  rw [View.read_apply]
  show V m c main_arg3 _ = _
  rw [V_main_arg3]
  refine congrArg _ (funext fun a => Fin.ext ?_)
  match a with
  | ⟨0, _⟩ => show win0_3.index t 0 * 1024 + 1 * d.val = d.val; rw [(idx_facts t).2.2.2.2.2.2.1]; omega
  | ⟨1, _⟩ => show win0_3.index t 1 * 2048 + 1 * r.val = t.val * 2048 + r.val; rw [(idx_facts t).2.2.2.2.2.2.2.1]; omega

/-- The decoder-bias block is the bias. -/
theorem blk_bd (c : Dev nD) (t : Fin cfg0.N) (k : Fin 1024) :
    (iblk m c 4 t : Vec F S1x1024 .f32) (ix2 (0 : Fin 1) k)
      = (m ((c : Thread nD τ).loc main_arg4) : Vec F S1024 .f32) (ix1 k) := by
  unfold iblk
  rw [View.read_apply]
  show (V m c main_call0_v2 : Vec F S1x1024 .f32) _ = _
  rw [V_bias_d, ← shapeCast_a_1a_apply (m ((c : Thread nD τ).loc main_arg4)) shapeCasts_S1024_S1x1024 (0 : Fin 1) k]
  refine congrArg _ (funext fun a => Fin.ext ?_)
  match a with
  | ⟨0, _⟩ => show win0_4.index t 0 * 1 + 1 * 0 = 0; rw [(idx_facts t).2.2.2.2.2.2.2.2.1]
  | ⟨1, _⟩ => show win0_4.index t 1 * 1024 + 1 * k.val = k.val; rw [(idx_facts t).2.2.2.2.2.2.2.2.2.1]; omega

/-- Entry r of the threshold block is entry r of tile t of the thresholds. -/
theorem blk_th (c : Dev nD) (t : Fin cfg0.N) (r : Fin 2048) :
    (iblk m c 5 t : Vec F S1x2048 .f32) (ix2 (0 : Fin 1) r)
      = (m ((c : Thread nD τ).loc main_arg5) : Vec F S16384 .f32) (ix1 (Cert.Sae.tileIx (tileOf t) r)) := by
  unfold iblk
  rw [View.read_apply]
  show (V m c main_call0_v1 : Vec F S1x16384 .f32) _ = _
  rw [V_thr, ← shapeCast_a_1a_apply (m ((c : Thread nD τ).loc main_arg5)) shapeCasts_S16384_S1x16384 (0 : Fin 1) (Cert.Sae.tileIx (tileOf t) r)]
  refine congrArg _ (funext fun a => Fin.ext ?_)
  match a with
  | ⟨0, _⟩ => show win0_5.index t 0 * 1 + 1 * 0 = 0; rw [(idx_facts t).2.2.2.2.2.2.2.2.2.2.1]
  | ⟨1, _⟩ => show win0_5.index t 1 * 2048 + 1 * r.val = t.val * 2048 + r.val; rw [(idx_facts t).2.2.2.2.2.2.2.2.2.2.2.1]; omega

end Cert.KernelIdeal.Blocks

end
-- ==== Proof.KernelValue.lean ====
/-
  The kernel's result array, at the extended reals, is the reconstruction y of the specification.

  The scratch carried from one grid step to the next holds, after step n, the sum of the shares of the tiles 0 … n:
  the first step stores its tile's share, every later step adds its own to what it finds. The last step writes the
  output block: that sum over all eight tiles, plus the decoder's bias; this is y, the decoding sum being the sum of the
  tiles' shares. The output block is the whole array and is written back once, after the last step.
-/
import proofs.«142870_g2654289789409_cont_9to1_1237_2_alg».proof.Proof.Gen.KernelIdeal.Value
import proofs.«142870_g2654289789409_cont_9to1_1237_2_alg».proof.Proof.KernelBody
import proofs.«142870_g2654289789409_cont_9to1_1237_2_alg».proof.Proof.KernelCases
import proofs.«142870_g2654289789409_cont_9to1_1237_2_alg».proof.Proof.KernelBlocks

noncomputable section

namespace Cert.KernelIdeal.Result

open Cert.KernelIdeal Cert.KernelIdeal.Gen Idealize.ShloMosaic Idealize.ShloMosaic.TcCoe Idealize.SL.Sem
open Idealize.ShloMosaic.ValueIdx
open Idealize.ShloMosaic.Pipeline (Dat)
open Cert.Sae Cert.KernelIdeal.Blocks

variable (m : (ℓ : Loc nD τ sig) → Buf (Elt Ideal) ℓ) (ρ : Dev nD → PrngReg)

/-! ### The six arrays as launched -/

abbrev aX (c : Dev nD) : FVec Ideal S64x1024 .f32 := m ((c : Thread nD τ).loc main_arg0)
abbrev aWe (c : Dev nD) : FVec Ideal S16384x1024 .f32 := m ((c : Thread nD τ).loc main_arg1)
abbrev aBe (c : Dev nD) : FVec Ideal S16384 .f32 := m ((c : Thread nD τ).loc main_arg2)
abbrev aWd (c : Dev nD) : FVec Ideal S1024x16384 .f32 := m ((c : Thread nD τ).loc main_arg3)
abbrev aBd (c : Dev nD) : FVec Ideal S1024 .f32 := m ((c : Thread nD τ).loc main_arg4)
abbrev aTh (c : Dev nD) : FVec Ideal S16384 .f32 := m ((c : Thread nD τ).loc main_arg5)

/-- The share computed from step t's blocks is the share of tile t. -/
theorem step_share (c : Dev nD) (t : Fin cfg0.N) :
    blkPart (iblk m c 0 t) (iblk m c 4 t) (iblk m c 1 t) (iblk m c 2 t) (iblk m c 5 t) (iblk m c 3 t)
      = tilePart (aX m c) (aWe m c) (aBe m c) (aWd m c) (aBd m c) (aTh m c) (tileOf t) :=
  blkPart_eq_tilePart (aX m c) (aWe m c) (aBe m c) (aWd m c) (aBd m c) (aTh m c) (tileOf t)
    (iblk m c 0 t) (iblk m c 4 t) (iblk m c 1 t) (iblk m c 2 t) (iblk m c 5 t) (iblk m c 3 t)
    (fun b k => blk_x m c t b k) (fun k => blk_bd m c t k) (fun r k => blk_we m c t r k)
    (fun r => blk_be m c t r) (fun r => blk_th m c t r) (fun d r => blk_wd m c t d r)

/-! ### The scratch, step by step -/

/-- After the first step the scratch holds the first tile's share. -/
theorem scratch_at_first (c : Dev nD) (t : Fin cfg0.N) (h0 : t.val % 8 = 0) (h1 : ¬1 ≤ t.val) (h2 : ¬t.val % 8 = 7) :
    (outsAt0 m c t.val t.isLt).2 = tilePart (aX m c) (aWe m c) (aBe m c) (aWd m c) (aBd m c) (aTh m c) (tileOf t) := by
  rw [outsAt0_A m c t h0 h1 h2]
  dsimp only
  refine (Cases.scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t)).trans ?_
  exact (Body.pay2_eq (iblk m c 0 t) (iblk m c 4 t) (iblk m c 1 t) (iblk m c 2 t) (iblk m c 5 t) (iblk m c 3 t)).trans (step_share m c t)

/-- After any later step it holds what the step before left plus the step's tile's share. -/
theorem scratch_at_later (c : Dev nD) (t : Fin cfg0.N) (h0 : ¬t.val % 8 = 0) (h1 : 1 ≤ t.val) :
    (outsAt0 m c t.val t.isLt).2
      = fun i => (outsAt0 m c (t.val - 1) (Nat.lt_of_le_of_lt (Nat.sub_le _ _) t.isLt)).2 i + tilePart (aX m c) (aWe m c) (aBe m c) (aWd m c) (aBd m c) (aTh m c) (tileOf t) i := by
  by_cases h2 : t.val % 8 = 7
  · rw [outsAt0_C m c t h0 h1 h2]
    dsimp only
    refine (Cases.scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2).trans ?_
    refine (Body.pay3_eq (iblk m c 0 t) (iblk m c 4 t) (iblk m c 1 t) (iblk m c 2 t) (iblk m c 5 t) (iblk m c 3 t) _).trans ?_
    rw [step_share m c t]
  · rw [outsAt0_B m c t h0 h1 h2]
    dsimp only
    refine (Cases.scratch_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2).trans ?_
    refine (Body.pay3_eq (iblk m c 0 t) (iblk m c 4 t) (iblk m c 1 t) (iblk m c 2 t) (iblk m c 5 t) (iblk m c 3 t) _).trans ?_
    rw [step_share m c t]

/-- So after step n the scratch holds the shares of the tiles 0 … n, added up. -/
theorem scratch_eq (c : Dev nD) : ∀ (n : ℕ) (hn : n < cfg0.N),
    (outsAt0 m c n hn).2 = runSum (aX m c) (aWe m c) (aBe m c) (aWd m c) (aBd m c) (aTh m c) n
  | 0, hn => by
    refine (scratch_at_first m c ⟨0, hn⟩ rfl (by show ¬1 ≤ 0; omega) (by show ¬0 % 8 = 7; omega)).trans ?_
    rw [runSum_zero]
    rfl
  | n + 1, hn => by
    have hN : n + 1 < 8 := lt_of_lt_of_eq hn (show cfg0.N = 8 from N_0)
    refine (scratch_at_later m c ⟨n + 1, hn⟩ (by show ¬(n + 1) % 8 = 0; omega) (by show 1 ≤ n + 1; omega)).trans ?_
    rw [runSum_succ (aX m c) (aWe m c) (aBe m c) (aWd m c) (aBd m c) (aTh m c) n hN]
    funext i
    show (outsAt0 m c n _).2 i + _ = _
    rw [scratch_eq c n (Nat.lt_of_succ_lt hn)]
    rfl

/-! ### The result -/

/-- The reconstruction, as contents of the result array. -/
abbrev result (c : Dev nD) : Buf (Elt Ideal) ((c : Thread nD τ).loc main_v0) :=
  decoded (aX m c) (aWe m c) (aBe m c) (aWd m c) (aBd m c) (aTh m c)

/-- The last step's output block is the reconstruction. -/
theorem out_at_last (c : Dev nD) (t : Fin cfg0.N) (h0 : ¬t.val % 8 = 0) (h1 : 1 ≤ t.val) (h2 : t.val % 8 = 7) :
    (outsAt0 m c t.val t.isLt).1 = result m c := by
  have hN : t.val < 8 := lt_of_lt_of_eq t.isLt (show cfg0.N = 8 from N_0)
  have h7 : t.val = 7 := by omega
  have hs := scratch_at_later m c t h0 h1
  rw [outsAt0_C m c t h0 h1 h2] at hs ⊢
  dsimp only at hs ⊢
  refine (Cases.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2).trans ?_
  rw [← Cases.scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2, hs]
  funext i
  obtain ⟨b, d, rfl⟩ : ∃ (b : Fin 64) (d : Fin 1024), i = ix2 b d := ⟨i 0, i 1, eq_ix2 i⟩
  rw [Body.pay4_apply, blk_bd m c t d]
  show (outsAt0 m c (t.val - 1) _).2 (ix2 b d) + tilePart (aX m c) (aWe m c) (aBe m c) (aWd m c) (aBd m c) (aTh m c) (tileOf t) (ix2 b d) + _ = _
  rw [scratch_eq m c (t.val - 1) (Nat.lt_of_le_of_lt (Nat.sub_le _ _) t.isLt)]
  show _ = decoded (aX m c) (aWe m c) (aBe m c) (aWd m c) (aBd m c) (aTh m c) (ix2 b d)
  rw [decoded_eq_runSum]
  have e : runSum (aX m c) (aWe m c) (aBe m c) (aWd m c) (aBd m c) (aTh m c) 7 = fun i => runSum (aX m c) (aWe m c) (aBe m c) (aWd m c) (aBd m c) (aTh m c) (t.val - 1) i + tilePart (aX m c) (aWe m c) (aBe m c) (aWd m c) (aBd m c) (aTh m c) (tileOf t) i := by
    have e6 : t.val - 1 = 6 := by omega
    have et : tileOf t = ⟨6 + 1, by decide⟩ := Fin.ext (by show t.val = 7; exact h7)
    rw [e6, et]
    exact runSum_succ (aX m c) (aWe m c) (aBe m c) (aWd m c) (aBd m c) (aTh m c) 6 (by decide)
  rw [e]

/-- What the one write-back writes is the reconstruction read through the block, which is the whole array. -/
theorem flushed_eq (c : Dev nD) (t : Fin cfg0.N) (hf : (cfg0.win 6).flush t = true) :
    (dats m 0 c).flushed 6 t = ((cfg0.win 6).blk t).view.read (Elt Ideal) (result m c) := by
  have hN : t.val < 8 := lt_of_lt_of_eq t.isLt (show cfg0.N = 8 from N_0)
  have h7 : t.val % 8 = 7 := (flush0_6 t).mp hf
  rw [Value.flushed6, out_at_last m c t (by omega) (by omega) h7]
  have hz' : (fun a => win0_6.index t a * main_v0.ty.shape.size a) = fun _ => 0 := funext fun a => by
    match a with
    | ⟨0, _⟩ => show win0_6.index t 0 * 64 = 0; rw [(idx_facts t).2.2.2.2.2.2.2.2.2.2.2.2.1]
    | ⟨1, _⟩ => show win0_6.index t 1 * 1024 = 0; rw [(idx_facts t).2.2.2.2.2.2.2.2.2.2.2.2.2]
  exact (Memref.read_access_unit_zero (Elt Ideal) main_v0 hz' (fun a => by rw [congrFun hz' a]; simp) (result m c)).symm

/-- So the result array ends holding the reconstruction: the last step's block covers it. -/
theorem final (c : Dev nD) : (dats m 0 c).arrAt 6 cfg0.N = result m c :=
  (dats m 0 c).arrAt_eq_of_cover 6 (result m c) (flushed_eq m c) fun i =>
    ⟨t0_7, (flush0_6 t0_7).mpr rfl, by
      show i ∈ ((View.whole main_v0).slice (win0_6.rect t0_7)).set
      rw [View.set_slice_whole, Rect.mem_set_unit]
      intro a
      have h0 : (i 0 : Nat) < 64 := (i 0).isLt
      have h1 : (i 1 : Nat) < 1024 := (i 1).isLt
      match a with
      | ⟨0, _⟩ => show win0_6.index t0_7 0 * win0_6.size 0 ≤ (i 0 : Nat) ∧ (i 0 : Nat) < win0_6.index t0_7 0 * win0_6.size 0 + win0_6.xsize (grid0.coords t0_7) 0
                  rw [show win0_6.index t0_7 0 * win0_6.size 0 = 0 from by decide +kernel, show win0_6.xsize (grid0.coords t0_7) 0 = 64 from by decide +kernel]; omega
      | ⟨1, _⟩ => show win0_6.index t0_7 1 * win0_6.size 1 ≤ (i 1 : Nat) ∧ (i 1 : Nat) < win0_6.index t0_7 1 * win0_6.size 1 + win0_6.xsize (grid0.coords t0_7) 1
                  rw [show win0_6.index t0_7 1 * win0_6.size 1 = 0 from by decide +kernel, show win0_6.xsize (grid0.coords t0_7) 1 = 1024 from by decide +kernel]; omega⟩

/-- The kernel's run: the result array at the reconstruction, the six arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Result

end
-- ==== Proof.RefValue.lean ====
/-
  The reference, read one operation at a time, is the reconstruction y of the specification: its first product
  contracts the centred rows with the TRANSPOSED encoder, so entry (b, f) sums c[b,k] · W_enc[f,k] over k; the biases
  and thresholds are broadcast along the rows; the comparison's bit is converted as an unsigned integer; the second
  product contracts with the transposed decoder, so entry (b, d) sums e[b,f] · W_dec[d,f] over f.
-/
import proofs.«142870_g2654289789409_cont_9to1_1237_2_alg».proof.Proof.Gen.ReferenceIdeal.Read
import proofs.«142870_g2654289789409_cont_9to1_1237_2_alg».proof.Proof.SaeSpec

noncomputable section

namespace Cert.ReferenceIdeal.Spec

open Cert.ReferenceIdeal Cert.ReferenceIdeal.Read Idealize.ShloMosaic Idealize.ShloMosaic.ValueIdx Cert.Sae

variable (x0 : FVec Ideal S64x1024 .f32) (x1 : FVec Ideal S16384x1024 .f32) (x2 : FVec Ideal S16384 .f32)
  (x3 : FVec Ideal S1024x16384 .f32) (x4 : FVec Ideal S1024 .f32) (x5 : FVec Ideal S16384 .f32)

/-! ### Where each operation reads its operands -/

theorem at_bias_d (b : Fin 64) (k : Fin 1024) : idx_main_v0 (idx_main_v1 (ix2 b k)) = ix1 k :=
  funext fun a => Fin.ext (by match a with | ⟨0, _⟩ => rfl)

theorem at_enc_T (k : Fin 1024) (f : Fin 16384) : idx_main_v3 (ix2 k f) = ix2 f k :=
  funext fun a => Fin.ext (by match a with | ⟨0, _⟩ => rfl | ⟨1, _⟩ => rfl)

theorem at_enc_l (b : Fin 64) (f : Fin 16384) (k : Fin 1024) : lidx_main_v4 (ix2 b f) k = ix2 b k :=
  funext fun a => Fin.ext (by match a with | ⟨0, _⟩ => rfl | ⟨1, _⟩ => rfl)

theorem at_enc_r (b : Fin 64) (f : Fin 16384) (k : Fin 1024) : ridx_main_v4 (ix2 b f) k = ix2 k f :=
  funext fun a => Fin.ext (by match a with | ⟨0, _⟩ => rfl | ⟨1, _⟩ => rfl)

theorem at_bias_e (b : Fin 64) (f : Fin 16384) : idx_main_v5 (idx_main_v6 (ix2 b f)) = ix1 f :=
  funext fun a => Fin.ext (by match a with | ⟨0, _⟩ => rfl)

theorem at_thr (b : Fin 64) (f : Fin 16384) : idx_main_v8 (idx_main_v9 (ix2 b f)) = ix1 f :=
  funext fun a => Fin.ext (by match a with | ⟨0, _⟩ => rfl)

theorem at_dec_T (f : Fin 16384) (d : Fin 1024) : idx_main_v13 (ix2 f d) = ix2 d f :=
  funext fun a => Fin.ext (by match a with | ⟨0, _⟩ => rfl | ⟨1, _⟩ => rfl)

theorem at_dec_l (b : Fin 64) (d : Fin 1024) (f : Fin 16384) : lidx_main_v14 (ix2 b d) f = ix2 b f :=
  funext fun a => Fin.ext (by match a with | ⟨0, _⟩ => rfl | ⟨1, _⟩ => rfl)

theorem at_dec_r (b : Fin 64) (d : Fin 1024) (f : Fin 16384) : ridx_main_v14 (ix2 b d) f = ix2 f d :=
  funext fun a => Fin.ext (by match a with | ⟨0, _⟩ => rfl | ⟨1, _⟩ => rfl)

theorem at_bias_out (b : Fin 64) (d : Fin 1024) : idx_main_v15 (idx_main_v16 (ix2 b d)) = ix1 d :=
  funext fun a => Fin.ext (by match a with | ⟨0, _⟩ => rfl)

/-! ### The stages -/

/-- The seventh value is the pre-activation p. -/
theorem preAct_eq (b : Fin 64) (f : Fin 16384) :
    val_main_v7 (F := Ideal) x0 x1 x2 x4 (ix2 b f) = preAct x0 x1 x2 x4 b f := by
  rw [val_main_v7_apply, val_main_v4_apply, val_main_v6_apply, val_main_v5_apply, at_bias_e]
  unfold preAct
  refine congrArg (· + x2 (ix1 f)) (Finset.sum_congr rfl fun k _ => ?_)
  rw [at_enc_l, at_enc_r, val_main_v2_apply, val_main_v1_apply, val_main_v0_apply, at_bias_d, val_main_v3_apply, at_enc_T]
  rfl

/-- The twelfth value is the gated feature e. -/
theorem feat_eq (b : Fin 64) (f : Fin 16384) :
    val_main_v12 (F := Ideal) x0 x1 x2 x4 x5 (ix2 b f) = feat x0 x1 x2 x4 x5 b f := by
  rw [val_main_v12_apply, val_main_v11_apply, val_main_v10_apply, preAct_eq, val_main_v9_apply, val_main_v8_apply, at_thr]
  rfl

/-- The result is the reconstruction y. -/
theorem result_eq : val_main_v17 (F := Ideal) x0 x1 x2 x3 x4 x5 = decoded x0 x1 x2 x3 x4 x5 := by
  funext i
  obtain ⟨b, d, rfl⟩ : ∃ (b : Fin 64) (d : Fin 1024), i = ix2 b d := ⟨i 0, i 1, eq_ix2 i⟩
  rw [decoded_ix2, val_main_v17_apply, val_main_v14_apply, val_main_v16_apply, val_main_v15_apply, at_bias_out]
  refine congrArg (· + x4 (ix1 d)) (Finset.sum_congr rfl fun f _ => ?_)
  rw [at_dec_l, at_dec_r, feat_eq, val_main_v13_apply, at_dec_T]

end Cert.ReferenceIdeal.Spec

end
-- ==== Proof.lean ====
/-
  The certificate of a fused sparse-autoencoder inference kernel against its plain reference.

  Both programs compute, from a batch x, an encoder (W_enc, b_enc), thresholds θ and a decoder (W_dec, b_dec),
      y[b,d] = (Σ_f e[b,f] · W_dec[d,f]) + b_dec[d],   e[b,f] = p[b,f] · [p[b,f] > θ[f]],
      p[b,f] = (Σ_k (x[b,k] − b_dec[k]) · W_enc[f,k]) + b_enc[f].
  The reference does it in two whole matrix products. The kernel walks the 16384 features in eight tiles of 2048: at
  each grid step it forms the tile's gated pre-activations, multiplies them with the tile's band of the decoder, and
  accumulates the partial product in a scratch buffer; after the last tile it adds the decoder's bias and writes the
  result. Over the extended reals the two agree because a finite sum may be regrouped into tiles: addition there is
  commutative and associative, and no other law is needed — in particular the inputs' finiteness is never used.
  The kernel's two comparisons-to-float conversions differ in spelling only: the kernel widens the comparison's bit to
  32 bits and converts it as a signed integer, the reference converts the bit as an unsigned one; both give 0 or 1.

  The frames of the two kernel programs are the generated ones; the reference's frame is its generated run with the
  result dropped; the idealization rewrote nothing.
-/
import proofs.«142870_g2654289789409_cont_9to1_1237_2_alg».proof.Defs
import proofs.«142870_g2654289789409_cont_9to1_1237_2_alg».proof.Proof.Gen.Kernel
import proofs.«142870_g2654289789409_cont_9to1_1237_2_alg».proof.Proof.Gen.Kernel.Skeleton
import proofs.«142870_g2654289789409_cont_9to1_1237_2_alg».proof.Proof.Gen.Kernel.Launch
import proofs.«142870_g2654289789409_cont_9to1_1237_2_alg».proof.Proof.Gen.Kernel.Points
import proofs.«142870_g2654289789409_cont_9to1_1237_2_alg».proof.Proof.Gen.Kernel.Frame
import proofs.«142870_g2654289789409_cont_9to1_1237_2_alg».proof.Proof.Gen.KernelIdeal
import proofs.«142870_g2654289789409_cont_9to1_1237_2_alg».proof.Proof.Gen.KernelIdeal.Skeleton
import proofs.«142870_g2654289789409_cont_9to1_1237_2_alg».proof.Proof.Gen.KernelIdeal.Launch
import proofs.«142870_g2654289789409_cont_9to1_1237_2_alg».proof.Proof.Gen.KernelIdeal.Points
import proofs.«142870_g2654289789409_cont_9to1_1237_2_alg».proof.Proof.Gen.KernelIdeal.Frame
import proofs.«142870_g2654289789409_cont_9to1_1237_2_alg».proof.Proof.Gen.ReferenceIdeal
import proofs.«142870_g2654289789409_cont_9to1_1237_2_alg».proof.Proof.Gen.Pre_finite_inputs
import proofs.«142870_g2654289789409_cont_9to1_1237_2_alg».proof.Proof.Gen.KernelIdeal.Value
import proofs.«142870_g2654289789409_cont_9to1_1237_2_alg».proof.Proof.Gen.ReferenceIdeal.Run
import proofs.«142870_g2654289789409_cont_9to1_1237_2_alg».proof.Proof.Gen.ReferenceIdeal.Read
import proofs.«142870_g2654289789409_cont_9to1_1237_2_alg».proof.Proof.KernelValue
import proofs.«142870_g2654289789409_cont_9to1_1237_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the six arrays, the kernel's result array ends at the reconstruction of its arrays and
    the reference's at the reconstruction of its own: one function of equal arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Spec.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
